-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S16x50000 : Shape := ⟨2, ![16, 50000]⟩
abbrev S3x1600000 : Shape := ⟨2, ![3, 1600000]⟩
abbrev S1600000 : Shape := ⟨1, ![1600000]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel
  bcast_S_S16x50000 : S_.BroadcastsInDim S16x50000 (![] : Fin 0 → Fin S16x50000.rank)
  reducesTo_S16x50000_S_d0_1 : S16x50000.ReducesTo [0, 1] S_
  bcast_S_S3x1600000 : S_.BroadcastsInDim S3x1600000 (![] : Fin 0 → Fin S3x1600000.rank)
  reducesTo_S3x1600000_S_d0_1 : S3x1600000.ReducesTo [0, 1] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg3 : IVec S1600000 32) (main_arg4 : IVec S1600000 32) (main_v13 : IVec S_ 1) (main_v15 : IVec S1600000 1) (main_c_5 : IVec S_ 32) : IVec S_ 1 :=
  let main_v16 : IVec S1600000 32 := broadcastInDim S1600000 ![] bcast_S_S1600000 main_c_5
  let main_v17 : IVec S1600000 1 := cmpi .sle main_arg3 main_v16
  let main_v18 : IVec S1600000 1 := andi main_v15 main_v17
  let main_c_6 : IVec S_ 1 := constantI S_ 1 1#1
  let main_v19 : IVec S_ 1 := (fun x v => Host.reduce IntOp.andi x v reducesTo_S1600000_S_d0 h_S_) main_v18 main_c_6
  let main_v20 : IVec S_ 1 := andi main_v13 main_v19
  let main_c_7 : IVec S_ 32 := constantI S_ 32 0#32
  let main_v21 : IVec S1600000 32 := broadcastInDim S1600000 ![] bcast_S_S1600000 main_c_7
  let main_v22 : IVec S1600000 1 := cmpi .sge main_arg4 main_v21
  let main_c_8 : IVec S_ 32 := constantI S_ 32 50000#32
  let main_v23 : IVec S1600000 32 := broadcastInDim S1600000 ![] bcast_S_S1600000 main_c_8
  let main_v24 : IVec S1600000 1 := cmpi .sle main_arg4 main_v23
  let main_v25 : IVec S1600000 1 := andi main_v22 main_v24
  let main_c_9 : IVec S_ 1 := constantI S_ 1 1#1
  let main_v26 : IVec S_ 1 := (fun x v => Host.reduce IntOp.andi x v reducesTo_S1600000_S_d0 h_S_) main_v25 main_c_9
  let main_v27 : IVec S_ 1 := andi main_v20 main_v26
  main_v27

def fn {F : FTy → Type} [FloatOps F] (main_arg0 : FVec F S1 .f32) (main_arg1 : FVec F S16x50000 .f32) (main_arg2 : FVec F S3x1600000 .f32) (main_arg3 : IVec S1600000 32) (main_arg4 : IVec S1600000 32) : IVec S_ 1 :=
  let main_v0 : FVec F S1 .f32 := Host.absf main_arg0
  let main_cst : FVec F S_ .f32 := constant S_ .f32 0x7F800000#32
  let main_v1 : FVec F S1 .f32 := broadcastInDim S1 ![] bcast_S_S1 main_cst
  let main_v2 : IVec S1 1 := cmpf .olt main_v0 main_v1
  let main_c : IVec S_ 1 := constantI S_ 1 1#1
  let main_v3 : IVec S_ 1 := (fun x v => Host.reduce IntOp.andi x v reducesTo_S1_S_d0 h_S_) main_v2 main_c
  let main_v4 : FVec F S16x50000 .f32 := Host.absf main_arg1
  let main_cst_0 : FVec F S_ .f32 := constant S_ .f32 0x7F800000#32
  let main_v5 : FVec F S16x50000 .f32 := broadcastInDim S16x50000 ![] bcast_S_S16x50000 main_cst_0
  let main_v6 : IVec S16x50000 1 := cmpf .olt main_v4 main_v5
  let main_c_1 : IVec S_ 1 := constantI S_ 1 1#1
  let main_v7 : IVec S_ 1 := (fun x v => Host.reduce IntOp.andi x v reducesTo_S16x50000_S_d0_1 h_S_) main_v6 main_c_1
  let main_v8 : IVec S_ 1 := andi main_v3 main_v7
  let main_v9 : FVec F S3x1600000 .f32 := Host.absf main_arg2
  let main_cst_2 : FVec F S_ .f32 := constant S_ .f32 0x7F800000#32
  let main_v10 : FVec F S3x1600000 .f32 := broadcastInDim S3x1600000 ![] bcast_S_S3x1600000 main_cst_2
  let main_v11 : IVec S3x1600000 1 := cmpf .olt main_v9 main_v10
  let main_c_3 : IVec S_ 1 := constantI S_ 1 1#1
  let main_v12 : IVec S_ 1 := (fun x v => Host.reduce IntOp.andi x v reducesTo_S3x1600000_S_d0_1 h_S_) main_v11 main_c_3
  let main_v13 : IVec S_ 1 := andi main_v8 main_v12
  let main_c_4 : IVec S_ 32 := constantI S_ 32 0#32
  let main_v14 : IVec S1600000 32 := broadcastInDim S1600000 ![] bcast_S_S1600000 main_c_4
  let main_v15 : IVec S1600000 1 := cmpi .sge main_arg3 main_v14
  let main_c_5 : IVec S_ 32 := constantI S_ 32 50000#32
  fn_part1 (F := F) main_arg3 main_arg4 main_v13 main_v15 main_c_5
-- ==== Kernel.lean ====
abbrev S1 : Shape := ⟨1, ![1]⟩
abbrev S16x50000 : Shape := ⟨2, ![16, 50000]⟩
abbrev S3x1600000 : Shape := ⟨2, ![3, 1600000]⟩
abbrev S1600000 : Shape := ⟨1, ![1600000]⟩
abbrev S_ : Shape := ⟨0, ![]⟩
abbrev S16x1 : Shape := ⟨2, ![16, 1]⟩
abbrev S16x50001 : Shape := ⟨2, ![16, 50001]⟩
abbrev S1600000x1 : Shape := ⟨2, ![1600000, 1]⟩
abbrev S1x1 : Shape := ⟨2, ![1, 1]⟩
abbrev S16x1600000 : Shape := ⟨2, ![16, 1600000]⟩
abbrev S16x64000 : Shape := ⟨2, ![16, 64000]⟩
abbrev S3x64000 : Shape := ⟨2, ![3, 64000]⟩
abbrev S1x64000 : Shape := ⟨2, ![1, 64000]⟩

abbrev nBuf : Space → Nat
  | .hbm => 77
  | .vmem => 8
  | .smem => 0
  | _ => 0

abbrev bufTy : (tb : Table) → Fin (tcTables nBuf tb) → BufTy
  | .hbm, ⟨0, _⟩ => ⟨S1, .f32⟩
  | .hbm, ⟨1, _⟩ => ⟨S16x50000, .f32⟩
  | .hbm, ⟨2, _⟩ => ⟨S3x1600000, .f32⟩
  | .hbm, ⟨3, _⟩ => ⟨S1600000, .i32⟩
  | .hbm, ⟨4, _⟩ => ⟨S1600000, .i32⟩
  | .hbm, ⟨5, _⟩ => ⟨S_, .f32⟩
  | .hbm, ⟨6, _⟩ => ⟨S16x1, .f32⟩
  | .hbm, ⟨7, _⟩ => ⟨S16x50001, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1, .i32⟩
  | .hbm, ⟨17, _⟩ => ⟨S_, .i32⟩
  | .hbm, ⟨18, _⟩ => ⟨S1600000x1, .i32⟩
  | .hbm, ⟨19, _⟩ => ⟨S1600000x1, .i1⟩
  | .hbm, ⟨20, _⟩ => ⟨S1x1, .i32⟩
  | .hbm, ⟨21, _⟩ => ⟨S1600000x1, .i32⟩
  | .hbm, ⟨22, _⟩ => ⟨S1600000x1, .i1⟩
  | .hbm, ⟨23, _⟩ => ⟨S1600000x1, .i1⟩
  | .hbm, ⟨24, _⟩ => ⟨S_, .i1⟩
  | .hbm, ⟨25, _⟩ => ⟨S1600000, .i1⟩
  | .hbm, ⟨26, _⟩ => ⟨S16x1600000, .f32⟩
  | .hbm, ⟨27, _⟩ => ⟨S16x1600000, .i1⟩
  | .hbm, ⟨28, _⟩ => ⟨S_, .f32⟩
  | .hbm, ⟨29, _⟩ => ⟨S16x1600000, .f32⟩
  | .hbm, ⟨30, _⟩ => ⟨S16x1600000, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1, .i32⟩
  | .hbm, ⟨40, _⟩ => ⟨S_, .i32⟩
  | .hbm, ⟨41, _⟩ => ⟨S1600000x1, .i32⟩
  | .hbm, ⟨42, _⟩ => ⟨S1600000x1, .i1⟩
  | .hbm, ⟨43, _⟩ => ⟨S1x1, .i32⟩
  | .hbm, ⟨44, _⟩ => ⟨S1600000x1, .i32⟩
  | .hbm, ⟨45, _⟩ => ⟨S1600000x1, .i1⟩
  | .hbm, ⟨46, _⟩ => ⟨S1600000x1, .i1⟩
  | .hbm, ⟨47, _⟩ => ⟨S_, .i1⟩
  | .hbm, ⟨48, _⟩ => ⟨S1600000, .i1⟩
  | .hbm, ⟨49, _⟩ => ⟨S16x1600000, .f32⟩
  | .hbm, ⟨50, _⟩ => ⟨S16x1600000, .i1⟩
  | .hbm, ⟨51, _⟩ => ⟨S_, .f32⟩
  | .hbm, ⟨52, _⟩ => ⟨S16x1600000, .f32⟩
  | .hbm, ⟨53, _⟩ => ⟨S16x1600000, .f32⟩
  | .hbm, ⟨54, _⟩ => ⟨S16x1600000, .f32⟩
  | .hbm, ⟨55, _⟩ => ⟨S16x1600000, .f32⟩
  | .hbm, ⟨56, _⟩ => ⟨S_, .f32⟩
  | .hbm, ⟨57, _⟩ => ⟨S16x50001, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S16x50001, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S16x50001, .f32⟩
  | .hbm, ⟨76, _⟩ => ⟨S16x50000, .f32⟩
  | .local _ .vmem, ⟨0, _⟩ => ⟨S16x64000, .f32⟩
  | .local _ .vmem, ⟨1, _⟩ => ⟨S16x64000, .f32⟩
  | .local _ .vmem, ⟨2, _⟩ => ⟨S16x64000, .f32⟩
  | .local _ .vmem, ⟨3, _⟩ => ⟨S16x64000, .f32⟩
  | .local _ .vmem, ⟨4, _⟩ => ⟨S3x64000, .f32⟩
  | .local _ .vmem, ⟨5, _⟩ => ⟨S3x64000, .f32⟩
  | .local _ .vmem, ⟨6, _⟩ => ⟨S16x64000, .f32⟩
  | .local _ .vmem, ⟨7, _⟩ => ⟨S16x64000, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v2 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v3 : Ref sig .tc := ⟨.hbm, 53, rfl⟩
abbrev main_v4 : Ref sig .tc := ⟨.hbm, 54, rfl⟩
abbrev main_v5 : Ref sig .tc := ⟨.hbm, 55, rfl⟩
abbrev main_cst_0 : Ref sig .tc := ⟨.hbm, 56, rfl⟩
abbrev main_v6 : Ref sig .tc := ⟨.hbm, 57, rfl⟩
abbrev main_c : Ref sig .tc := ⟨.hbm, 58, rfl⟩
abbrev main_v7 : Ref sig .tc := ⟨.hbm, 59, rfl⟩
abbrev main_v8 : Ref sig .tc := ⟨.hbm, 60, rfl⟩
abbrev main_c_1 : Ref sig .tc := ⟨.hbm, 61, rfl⟩
abbrev main_v9 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_c_2 : Ref sig .tc := ⟨.hbm, 67, rfl⟩
abbrev main_v14 : Ref sig .tc := ⟨.hbm, 68, rfl⟩
abbrev main_v15 : Ref sig .tc := ⟨.hbm, 69, rfl⟩
abbrev main_c_3 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x64000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x64000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x64000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x64000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S16x1 : S_.BroadcastsInDim S16x1 (![] : Fin 0 → Fin S16x1.rank)
  concatenates_S16x1_S16x50000_S16x50001_d1 : Shape.Concatenates [S16x1, S16x50000] S16x50001 1
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S16x1600000_1 : S1600000.BroadcastsInDim S16x1600000 (![1] : Fin 1 → Fin S16x1600000.rank)
  bcast_S_S16x1600000 : S_.BroadcastsInDim S16x1600000 (![] : Fin 0 → Fin S16x1600000.rank)
  inb_S16x64000_S16x64000_0_0 : ∀ a, (![0, 0] : Fin 2 → Nat) a + S16x64000.size a ≤ S16x64000.size a
  h_S16x64000 : 0 < S16x64000.numel
  shapeCasts_S16x64000_S16x64000 : S16x64000.ShapeCasts S16x64000
  inb_S3x64000_S3x64000_0_0 : ∀ a, (![0, 0] : Fin 2 → Nat) a + S3x64000.size a ≤ S3x64000.size a
  h_S3x64000 : 0 < S3x64000.numel
  slices_S3x64000_o0_0_S1x64000 : S3x64000.Slices ![0, 0] S1x64000
  slices_S3x64000_o1_0_S1x64000 : S3x64000.Slices ![1, 0] S1x64000
  slices_S3x64000_o2_0_S1x64000 : S3x64000.Slices ![2, 0] S1x64000
  broadcasts_S1x64000_S16x64000 : S1x64000.Broadcasts S16x64000
  bcast_S_S16x50001 : S_.BroadcastsInDim S16x50001 (![] : Fin 0 → Fin S16x50001.rank)
  slices_S16x50001_S16x50000_0_1 : S16x50001.Slices ![0, 1] S16x50000
  gather_S16x50001_S1600000x1_S16x1600000_0_1_n_n_1_1_161_wf : GatherDims.WF S16x50001 S1600000x1 S16x1600000 [0] [1] [] [1] [] 1 ![16, 1]
  scatter_S16x50001_S1600000x1_S16x1600000_0_1_1_1_wf : ScatterDims.WF S16x50001 S1600000x1 S16x1600000 [0] [1] [1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x64000.size a ≤ S16x1600000.size a
  hwx0_0 : ∀ i : grid0.Coords, EltTy.bits .f32 = 32 ∨ (Rect.block (s := S16x1600000) S16x64000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x64000.size a ≤ S16x1600000.size a
  hwx0_1 : ∀ i : grid0.Coords, EltTy.bits .f32 = 32 ∨ (Rect.block (s := S16x1600000) S16x64000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x64000.size a ≤ S3x1600000.size a
  hwx0_2 : ∀ i : grid0.Coords, EltTy.bits .f32 = 32 ∨ (Rect.block (s := S3x1600000) S3x64000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x64000.size a ≤ S16x1600000.size a
  hwx0_3 : ∀ i : grid0.Coords, EltTy.bits .f32 = 32 ∨ (Rect.block (s := S16x1600000) S16x64000.size (cc0_transform_3 i) (hinb0_3 i)).WholeWords (EltTy.packing .f32)

variable [Facts₀]

def gather_S16x50001_S1600000x1_S16x1600000_0_1_n_n_1_1_161 : GatherDims S16x50001 S1600000x1 S16x1600000 where
  offsetDims := [0]
  collapsedSliceDims := [1]
  operandBatchingDims := []
  startIndicesBatchingDims := []
  startIndexMap := [1]
  indexVectorDim := 1
  sliceSizes := ![16, 1]
  wf := gather_S16x50001_S1600000x1_S16x1600000_0_1_n_n_1_1_161_wf
def scatter_S16x50001_S1600000x1_S16x1600000_0_1_1_1 : ScatterDims S16x50001 S1600000x1 S16x1600000 where
  updateWindowDims := [0]
  insertedWindowDims := [1]
  scatterDimsToOperandDims := [1]
  indexVectorDim := 1
  wf := scatter_S16x50001_S1600000x1_S16x1600000_0_1_1_1_wf

abbrev win0_0 : Pipeline.Window sig grid0 :=
  Pipeline.Window.ofSpec (Memref.whole main_v2) S16x64000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S16x64000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3x64000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S16x64000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1 : Shape := ⟨1, ![1]⟩
abbrev S16x50000 : Shape := ⟨2, ![16, 50000]⟩
abbrev S3x1600000 : Shape := ⟨2, ![3, 1600000]⟩
abbrev S1600000 : Shape := ⟨1, ![1600000]⟩
abbrev S16x1 : Shape := ⟨2, ![16, 1]⟩
abbrev S_ : Shape := ⟨0, ![]⟩
abbrev S16x50001 : Shape := ⟨2, ![16, 50001]⟩
abbrev S1600000x1 : Shape := ⟨2, ![1600000, 1]⟩
abbrev S16x1600000 : Shape := ⟨2, ![16, 1600000]⟩
abbrev S1x1600000 : Shape := ⟨2, ![1, 1600000]⟩

abbrev nBuf : Space → Nat
  | .hbm => 66
  | .vmem => 0
  | .smem => 0
  | _ => 0

abbrev bufTy : (tb : Table) → Fin (tcTables nBuf tb) → BufTy
  | .hbm, ⟨0, _⟩ => ⟨S1, .f32⟩
  | .hbm, ⟨1, _⟩ => ⟨S16x50000, .f32⟩
  | .hbm, ⟨2, _⟩ => ⟨S3x1600000, .f32⟩
  | .hbm, ⟨3, _⟩ => ⟨S1600000, .i32⟩
  | .hbm, ⟨4, _⟩ => ⟨S1600000, .i32⟩
  | .hbm, ⟨5, _⟩ => ⟨S16x1, .f32⟩
  | .hbm, ⟨6, _⟩ => ⟨S_, .f32⟩
  | .hbm, ⟨7, _⟩ => ⟨S16x1, .f32⟩
  | .hbm, ⟨8, _⟩ => ⟨S16x50001, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S16x1600000, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S16x1600000, .f32⟩
  | .hbm, ⟨27, _⟩ => ⟨S1x1600000, .f32⟩
  | .hbm, ⟨28, _⟩ => ⟨S1600000, .f32⟩
  | .hbm, ⟨29, _⟩ => ⟨S1x1600000, .f32⟩
  | .hbm, ⟨30, _⟩ => ⟨S1600000, .f32⟩
  | .hbm, ⟨31, _⟩ => ⟨S1x1600000, .f32⟩
  | .hbm, ⟨32, _⟩ => ⟨S1600000, .f32⟩
  | .hbm, ⟨33, _⟩ => ⟨S16x1600000, .f32⟩
  | .hbm, ⟨34, _⟩ => ⟨S1x1600000, .f32⟩
  | .hbm, ⟨35, _⟩ => ⟨S16x1600000, .f32⟩
  | .hbm, ⟨36, _⟩ => ⟨S16x1600000, .f32⟩
  | .hbm, ⟨37, _⟩ => ⟨S1x1600000, .f32⟩
  | .hbm, ⟨38, _⟩ => ⟨S16x1600000, .f32⟩
  | .hbm, ⟨39, _⟩ => ⟨S16x1600000, .f32⟩
  | .hbm, ⟨40, _⟩ => ⟨S16x1600000, .f32⟩
  | .hbm, ⟨41, _⟩ => ⟨S1x1600000, .f32⟩
  | .hbm, ⟨42, _⟩ => ⟨S16x1600000, .f32⟩
  | .hbm, ⟨43, _⟩ => ⟨S16x1600000, .f32⟩
  | .hbm, ⟨44, _⟩ => ⟨S_, .f32⟩
  | .hbm, ⟨45, _⟩ => ⟨S16x50001, .f32⟩
  | .hbm, ⟨46, _⟩ => ⟨S16x1600000, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S16x50001, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S16x50001, .f32⟩
  | .hbm, ⟨65, _⟩ => ⟨S16x50000, .f32⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_c_4 : Ref sig .tc := ⟨.hbm, 47, rfl⟩
abbrev main_v36 : Ref sig .tc := ⟨.hbm, 48, rfl⟩
abbrev main_v37 : Ref sig .tc := ⟨.hbm, 49, rfl⟩
abbrev main_c_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_c_6 : Ref sig .tc := ⟨.hbm, 56, rfl⟩
abbrev main_v43 : Ref sig .tc := ⟨.hbm, 57, rfl⟩
abbrev main_v44 : Ref sig .tc := ⟨.hbm, 58, rfl⟩
abbrev main_c_7 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩

abbrev nD : Nat := 1
abbrev τ : Topo := Topo.v7x

variable {F : FTy → Type} [FloatOps F]

class Facts₀ : Prop where
  slices_S16x50000_S16x1_0_0 : S16x50000.Slices ![0, 0] S16x1
  bcast_S_S16x1 : S_.BroadcastsInDim S16x1 (![] : Fin 0 → Fin S16x1.rank)
  concatenates_S16x1_S16x50000_S16x50001_d1 : Shape.Concatenates [S16x1, S16x50000] S16x50001 1
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S3x1600000_S1x1600000_0_0 : S3x1600000.Slices ![0, 0] S1x1600000
  shapeCasts_S1x1600000_S1600000 : S1x1600000.ShapeCasts S1600000
  slices_S3x1600000_S1x1600000_1_0 : S3x1600000.Slices ![1, 0] S1x1600000
  slices_S3x1600000_S1x1600000_2_0 : S3x1600000.Slices ![2, 0] S1x1600000
  bcast_S1600000_S1x1600000_1 : S1600000.BroadcastsInDim S1x1600000 (![1] : Fin 1 → Fin S1x1600000.rank)
  bcast_S1x1600000_S16x1600000_0_1 : S1x1600000.BroadcastsInDim S16x1600000 (![0, 1] : Fin 2 → Fin S16x1600000.rank)
  bcast_S_S16x50001 : S_.BroadcastsInDim S16x50001 (![] : Fin 0 → Fin S16x50001.rank)
  slices_S16x50001_S16x50000_0_1 : S16x50001.Slices ![0, 1] S16x50000
  gather_S16x50001_S1600000x1_S16x1600000_0_1_n_n_1_1_161_wf : GatherDims.WF S16x50001 S1600000x1 S16x1600000 [0] [1] [] [1] [] 1 ![16, 1]
  scatter_S16x50001_S1600000x1_S16x1600000_0_1_1_1_wf : ScatterDims.WF S16x50001 S1600000x1 S16x1600000 [0] [1] [1] 1

variable [Facts₀]

def gather_S16x50001_S1600000x1_S16x1600000_0_1_n_n_1_1_161 : GatherDims S16x50001 S1600000x1 S16x1600000 where
  offsetDims := [0]
  collapsedSliceDims := [1]
  operandBatchingDims := []
  startIndicesBatchingDims := []
  startIndexMap := [1]
  indexVectorDim := 1
  sliceSizes := ![16, 1]
  wf := gather_S16x50001_S1600000x1_S16x1600000_0_1_n_n_1_1_161_wf
def scatter_S16x50001_S1600000x1_S16x1600000_0_1_1_1 : ScatterDims S16x50001 S1600000x1 S16x1600000 where
  updateWindowDims := [0]
  insertedWindowDims := [1]
  scatterDimsToOperandDims := [1]
  indexVectorDim := 1
  wf := scatter_S16x50001_S1600000x1_S16x1600000_0_1_1_1_wf

class Facts : Prop extends Facts₀ where

variable [Facts]
-- ==== Proof.HostTerms.lean ====
/-
  The host program around the region, as terms of the arguments.

  Before the region: the voltages get a zero column in front (the ground node), and for each end of every edge the column
  named by that end's node index is taken. An index is read signed; a negative one counts from the end
  (`idx + 50001`); the column is gathered with the index clamped into range, and where the (wrapped) index is outside
  `0 … 50000` the gathered value is replaced by a fill value. After the region: each edge's current is subtracted at its
  source node and added at its destination node, into zeros, and the ground column is dropped.
-/
import proofs.«430799_j3075196584637_3_alg».proof.Proof.Gen.KernelIdeal

noncomputable section

open Idealize.ShloMosaic

namespace Cert.KernelIdeal.Host

open Cert.KernelIdeal Cert.KernelIdeal.Gen

variable {F : FTy → Type} [FloatOps F]

/-- Node indices as they stand, or counted from the end of the 50001 columns when negative. -/
def wrap (s : IVec S1600000 32) : IVec S1600000 32 :=
  select (cmpi .slt s (broadcastInDim S1600000 ![] bcast_S_S1600000 (constantI S_ 32 0#32)))
    (addi s (broadcastInDim S1600000 ![] bcast_S_S1600000 (constantI S_ 32 50001#32))) s

/-- The same as gather and scatter start indices, one per edge. -/
def wrapped (s : IVec S1600000 32) : IVec S1600000x1 32 :=
  broadcastInDim S1600000x1 ![0] bcast_S1600000_S1600000x1_0 (wrap s)

/-- The voltages with the ground node's zero column in front. -/
def padded (x : FVec F S16x50000 .f32) : FVec F S16x50001 .f32 :=
  concatenate S16x50001 1 [⟨S16x1, broadcastInDim S16x1 ![] bcast_S_S16x1 (constant S_ .f32 0x00000000#32)⟩, ⟨S16x50000, x⟩]
    concatenates_S16x1_S16x50000_S16x50001_d1

/-- The columns of `a` at the wrapped indices (the gather clamps). -/
def columns (a : FVec F S16x50001 .f32) (s : IVec S1600000 32) : FVec F S16x1600000 .f32 :=
  Host.gather gather_S16x50001_S1600000x1_S16x1600000_0_1_n_n_1_1_161 a (wrapped s)

/-- Per start index: is it inside `0 … 50000`? -/
def inRange (w : IVec S1600000x1 32) : IVec S1600000x1 1 :=
  andi (cmpi .sge w (broadcastInDim S1600000x1 ![] bcast_S_S1600000x1 (constantI S_ 32 0#32)))
    (cmpi .sle w (broadcastInDim S1600000x1 ![0, 1] bcast_S1x1_S1600000x1_0_1
      (broadcastInDim S1x1 ![1] bcast_S1_S1x1_1 (constantI S1 32 50000#32))))

/-- Per edge: is its wrapped index inside? (the `and` over the index vector's one component) -/
def inside (s : IVec S1600000 32) : IVec S1600000 1 :=
  Host.reduce IntOp.andi (inRange (wrapped s)) (constantI S_ 1 1#1) reducesTo_S1600000x1_S1600000_d1 h_S_

/-- The kernel's column take: the gathered column where the index is inside, a fill value elsewhere. -/
def taken (a : FVec F S16x50001 .f32) (s : IVec S1600000 32) : FVec F S16x1600000 .f32 :=
  select (broadcastInDim S16x1600000 ![1] bcast_S1600000_S16x1600000_1 (inside s)) (columns a s)
    (broadcastInDim S16x1600000 ![] bcast_S_S16x1600000 (constant S_ .f32 0x7FC00000#32))

/-- Kirchhoff's current law as a scatter: into zeros, minus each edge's current at its source node, plus it at its
    destination node; then the ground column dropped. -/
def nodeSums (src des : IVec S1600000 32) (cur : FVec F S16x1600000 .f32) : FVec F S16x50000 .f32 :=
  extractStridedSlice S16x50000 ![0, 1]
    (Host.scatterAdd scatter_S16x50001_S1600000x1_S16x1600000_0_1_1_1
      (Host.scatterAdd scatter_S16x50001_S1600000x1_S16x1600000_0_1_1_1
        (broadcastInDim S16x50001 ![] bcast_S_S16x50001 (constant S_ .f32 0x00000000#32)) (wrapped src) (Host.negf cur))
      (wrapped des) cur)
    slices_S16x50001_S16x50000_0_1

end Cert.KernelIdeal.Host

end
-- ==== Proof.EdgeCurrent.lean ====
/-
  The region's result as one function of whole arrays.

  Edge `e` carries three parameters, the rows of `p`: an amplitude `p(0,e)`, a gain `p(1,e)` and an offset `p(2,e)`.
  With `vs`, `vd` the voltages at its two ends, for each of the 16 batch rows `r`, its current is
      current(r, e) = p(0,e) · tanh (p(1,e) · (vs(r,e) − vd(r,e)) + p(2,e)).
  The region computes this 64000 edges at a time: grid point `t` sees columns `64000·t … 64000·t + 63999` of `vs`, `vd`
  and `p`, and writes back the same columns of the result. Every operation of the body acts column by column (the three
  parameter rows are sliced out and repeated down the 16 batch rows), so what a point writes is its block of `current`
  of the whole arrays, and the 25 blocks tile the result: after the run the result array is `current` of the arrays the
  region found.
-/
import proofs.«430799_j3075196584637_3_alg».proof.Proof.Gen.KernelIdeal.Frame
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Edge

open Cert.KernelIdeal Cert.KernelIdeal.Gen

variable {F : FTy → Type} [FloatOps F]

/-- Row `k` of the parameters at the column of `i`. -/
abbrev prow (k : Fin 3) (i : S16x1600000.Idx) : S3x1600000.Idx := ix2 k (i 1)

/-- The edge model over whole arrays: amplitude · tanh (gain · (vs − vd) + offset), the parameters taken at the edge. -/
def current (vs vd : S16x1600000.Idx → Elt F .f32) (p : S3x1600000.Idx → Elt F .f32) : S16x1600000.Idx → Elt F .f32 :=
  fun i => FloatOps.mulf (p (prow 0 i))
    (FloatOps.tanh (FloatOps.addf (FloatOps.mulf (p (prow 1 i)) (FloatOps.subf (vs i) (vd i))) (p (prow 2 i))))

/-! ## The body at an index of its block -/

/-- A parameter row sliced out of the block and repeated down the batch rows, read at `j`: the block at that row and `j`'s column. -/
theorem row_apply {α : Type} (o : Nat) (x2 : S3x64000.Idx → α) (h : S3x64000.Slices ![o, 0] S1x64000)
    (hb : S1x64000.Broadcasts S16x64000) (j : S16x64000.Idx) (k : S3x64000.Idx) (hk0 : (k 0).val = o) (hk1 : (k 1).val = (j 1).val) :
    broadcastTo S16x64000 (extractStridedSlice S1x64000 ![o, 0] x2 h) hb j = x2 k := by
  refine (broadcastTo_apply _ hb j (ix2 (0 : Fin 1) (j 1)) (fun a => ?_)).trans
    (extractStridedSlice_apply _ x2 h _ k (fun a => ?_))
  · match a with
    | ⟨0, _⟩ => show (0 : Nat) = if (1 : Nat) = 1 then 0 else _; rw [if_pos rfl]
    | ⟨1, _⟩ => show (j 1).val = if (64000 : Nat) = 1 then 0 else (j 1).val; rw [if_neg (by decide)]
  · match a with
    | ⟨0, _⟩ => show (k 0).val = o + 0; omega
    | ⟨1, _⟩ => show (k 1).val = 0 + (j 1).val; omega

/-- What the body stores, at an index of the block: the edge model of the three loaded blocks there. -/
theorem pay_apply (x0 x1 : Vec F S16x64000 .f32) (x2 : Vec F S3x64000 .f32) (j : S16x64000.Idx) :
    k0_pay1 x0 x1 x2 j = FloatOps.mulf (x2 (ix2 (0 : Fin 3) (j 1)))
      (FloatOps.tanh (FloatOps.addf (FloatOps.mulf (x2 (ix2 (1 : Fin 3) (j 1))) (FloatOps.subf (x0 j) (x1 j))) (x2 (ix2 (2 : Fin 3) (j 1))))) := by
  unfold k0_pay1
  simp only [shapeCast_self]
  show FloatOps.mulf (broadcastTo S16x64000 (extractStridedSlice S1x64000 ![0, 0] x2 _) _ j)
      (FloatOps.tanh (FloatOps.addf (FloatOps.mulf (broadcastTo S16x64000 (extractStridedSlice S1x64000 ![1, 0] x2 _) _ j) (FloatOps.subf (x0 j) (x1 j)))
        (broadcastTo S16x64000 (extractStridedSlice S1x64000 ![2, 0] x2 _) _ j))) = _
  rw [row_apply 0 x2 _ _ j (ix2 (0 : Fin 3) (j 1)) rfl rfl, row_apply 1 x2 _ _ j (ix2 (1 : Fin 3) (j 1)) rfl rfl,
    row_apply 2 x2 _ _ j (ix2 (2 : Fin 3) (j 1)) rfl rfl]

end Cert.KernelIdeal.Edge

/-! ## From blocks to the array -/

namespace Cert.KernelIdeal.Edge

open Cert.KernelIdeal Cert.KernelIdeal.Gen

variable {F : FTy → Type} [FloatOps F]
variable (m : (ℓ : Loc nD τ sig) → Buf (Elt F) ℓ)

theorem origin : (![0, 0] : Fin 2 → Nat) = fun _ => 0 := funext fun a => by fin_cases a <;> rfl

/-- At grid point `t` every window is on block `(0, t)`: all rows, the `t`-th stretch of 64000 columns. -/
theorem block_at : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- A block of a [16, 1600000] array at point `t` (all rows, columns `64000·t …`) read at `y`, whatever the array holds: the
    array at `y`'s row and column `64000·t + y`'s column. For the first voltage window, -/
theorem read_vs (A : S16x1600000.Idx → Elt F .f32) (t : Fin cfg0.N) (y : S16x64000.Idx) (i : S16x1600000.Idx)
    (h0 : (i 0).val = (y 0).val) (h1 : (i 1).val = 64000 * t.val + (y 1).val) :
    ((cfg0.win 0).blk t).view.read (Elt F) A y = A i := by
  obtain ⟨a0, a1, -⟩ := block_at t
  show A (((cfg0.win 0).blk t).view.emb y) = A i
  refine congrArg A (funext fun a => Fin.ext ?_)
  match a with
  | ⟨0, _⟩ => show win0_0.index t 0 * 16 + 1 * (y 0).val = (i 0).val; omega
  | ⟨1, _⟩ => show win0_0.index t 1 * 64000 + 1 * (y 1).val = (i 1).val; omega

/-- for the second, -/
theorem read_vd (A : S16x1600000.Idx → Elt F .f32) (t : Fin cfg0.N) (y : S16x64000.Idx) (i : S16x1600000.Idx)
    (h0 : (i 0).val = (y 0).val) (h1 : (i 1).val = 64000 * t.val + (y 1).val) :
    ((cfg0.win 1).blk t).view.read (Elt F) A y = A i := by
  obtain ⟨-, -, b0, b1, -⟩ := block_at t
  show A (((cfg0.win 1).blk t).view.emb y) = A i
  refine congrArg A (funext fun a => Fin.ext ?_)
  match a with
  | ⟨0, _⟩ => show win0_1.index t 0 * 16 + 1 * (y 0).val = (i 0).val; omega
  | ⟨1, _⟩ => show win0_1.index t 1 * 64000 + 1 * (y 1).val = (i 1).val; omega

/-- and for the parameters' [3, 1600000] array. -/
theorem read_p (A : S3x1600000.Idx → Elt F .f32) (t : Fin cfg0.N) (y : S3x64000.Idx) (i : S3x1600000.Idx)
    (h0 : (i 0).val = (y 0).val) (h1 : (i 1).val = 64000 * t.val + (y 1).val) :
    ((cfg0.win 2).blk t).view.read (Elt F) A y = A i := by
  obtain ⟨-, -, -, -, p0, p1, -⟩ := block_at t
  show A (((cfg0.win 2).blk t).view.emb y) = A i
  refine congrArg A (funext fun a => Fin.ext ?_)
  match a with
  | ⟨0, _⟩ => show win0_2.index t 0 * 3 + 1 * (y 0).val = (i 0).val; omega
  | ⟨1, _⟩ => show win0_2.index t 1 * 64000 + 1 * (y 1).val = (i 1).val; omega

/-- The three input blocks of point `t` are those reads of the arrays the region finds. -/
theorem vs_block (c : Dev nD) (t : Fin cfg0.N) (y : S16x64000.Idx) (i : S16x1600000.Idx)
    (h0 : (i 0).val = (y 0).val) (h1 : (i 1).val = 64000 * t.val + (y 1).val) :
    (iblk m c 0 t : Vec F S16x64000 .f32) y = (V m c main_v2 : S16x1600000.Idx → Elt F .f32) i := by
  unfold iblk
  show ((cfg0.win 0).blk t).view.read (Elt F) (V m c main_v2) y = V m c main_v2 i
  generalize (V m c main_v2 : S16x1600000.Idx → Elt F .f32) = A
  exact read_vs A t y i h0 h1

theorem vd_block (c : Dev nD) (t : Fin cfg0.N) (y : S16x64000.Idx) (i : S16x1600000.Idx)
    (h0 : (i 0).val = (y 0).val) (h1 : (i 1).val = 64000 * t.val + (y 1).val) :
    (iblk m c 1 t : Vec F S16x64000 .f32) y = (V m c main_v3 : S16x1600000.Idx → Elt F .f32) i := by
  unfold iblk
  show ((cfg0.win 1).blk t).view.read (Elt F) (V m c main_v3) y = V m c main_v3 i
  generalize (V m c main_v3 : S16x1600000.Idx → Elt F .f32) = A
  exact read_vd A t y i h0 h1

theorem p_block (c : Dev nD) (t : Fin cfg0.N) (y : S3x64000.Idx) (i : S3x1600000.Idx)
    (h0 : (i 0).val = (y 0).val) (h1 : (i 1).val = 64000 * t.val + (y 1).val) :
    (iblk m c 2 t : Vec F S3x64000 .f32) y = (V m c main_arg2 : S3x1600000.Idx → Elt F .f32) i := by
  unfold iblk
  show ((cfg0.win 2).blk t).view.read (Elt F) (V m c main_arg2) y = V m c main_arg2 i
  generalize (V m c main_arg2 : S3x1600000.Idx → Elt F .f32) = A
  exact read_p A t y i h0 h1

/-- What the body stores at `j` of point `t`'s block is `current` of the whole arrays at `j`'s row, column `64000·t + j`'s column. -/
theorem point_eq (c : Dev nD) (t : Fin cfg0.N) (j : S16x64000.Idx) (i : S16x1600000.Idx)
    (h0 : (i 0).val = (j 0).val) (h1 : (i 1).val = 64000 * t.val + (j 1).val) :
    k0_pay1 (iblk m c 0 t) (iblk m c 1 t) (iblk m c 2 t) j
      = current (V m c main_v2) (V m c main_v3) (V m c main_arg2) i := by
  refine (pay_apply (iblk m c 0 t) (iblk m c 1 t) (iblk m c 2 t) j).trans ?_
  unfold current
  rw [vs_block m c t j i h0 h1, vd_block m c t j i h0 h1,
    p_block m c t (ix2 (0 : Fin 3) (j 1)) (prow 0 i) rfl h1,
    p_block m c t (ix2 (1 : Fin 3) (j 1)) (prow 1 i) rfl h1,
    p_block m c t (ix2 (2 : Fin 3) (j 1)) (prow 2 i) rfl h1]

/-- What point `t` writes back is block `t` of `current` of the arrays as the region finds them. -/
theorem flushed_eq (c : Dev nD) (t : Fin cfg0.N) :
    (dats m 0 c).flushed 3 t
      = ((cfg0.win 3).blk t).view.read (Elt F) (current (V m c main_v2) (V m c main_v3) (V m c main_arg2)) := by
  show (cfg0.win 3).cut (grid0.coords t) ((dats m 0 c).after 3 t) = _
  rw [after0_3]
  unfold out0_3
  rw [View.canon_unit_zero origin]
  simp only [View.ld_unit_zero (S := S16x64000) origin, View.ld_unit_zero (S := S3x64000) origin]
  obtain ⟨-, -, -, -, -, -, o0, o1⟩ := block_at t
  funext j
  show k0_pay1 (iblk m c 0 t) (iblk m c 1 t) (iblk m c 2 t) j
      = current (V m c main_v2) (V m c main_v3) (V m c main_arg2) (((cfg0.win 3).blk t).view.emb j)
  refine point_eq m c t j _ ?_ ?_
  · show win0_3.index t 0 * 16 + 1 * (j 0).val = (j 0).val; omega
  · show win0_3.index t 1 * 64000 + 1 * (j 1).val = 64000 * t.val + (j 1).val; omega

/-- An index of the result is in point `t`'s block iff each coordinate is in the block's range on its axis. -/
theorem mem_block (t : Fin cfg0.N) (i : S16x1600000.Idx) :
    i ∈ ((cfg0.win 3).blk t).view.set ↔ ∀ a : Fin 2, win0_3.index t a * S16x64000.size a ≤ (i a).val
      ∧ (i a).val < win0_3.index t a * S16x64000.size a + S16x64000.size a := by
  show i ∈ ((View.whole main_v4).slice (win0_3.rect t)).set ↔ _
  rw [View.set_slice_whole, Rect.mem_set_unit]
  exact Iff.rfl

/-- Column `e` of the result lies in the block of point `e / 64000`, which is written back: the blocks cover the array. -/
theorem covered (i : S16x1600000.Idx) :
    ∃ t : Fin cfg0.N, (cfg0.win 3).flush t = true ∧ i ∈ ((cfg0.win 3).blk t).view.set := by
  have hi0 : (i 0).val < 16 := (i 0).isLt
  have hi1 : (i 1).val < 1600000 := (i 1).isLt
  have hN : cfg0.N = 25 := N_0
  obtain ⟨t, ht⟩ : ∃ t : Fin cfg0.N, t.val = (i 1).val / 64000 := ⟨⟨(i 1).val / 64000, by omega⟩, rfl⟩
  obtain ⟨-, -, -, -, -, -, o0, o1⟩ := block_at t
  refine ⟨t, flush0_3 t, ?_⟩
  rw [mem_block]
  intro a
  match a with
  | ⟨0, _⟩ => show win0_3.index t (0 : Fin 2) * 16 ≤ (i 0).val ∧ (i 0).val < win0_3.index t (0 : Fin 2) * 16 + 16; omega
  | ⟨1, _⟩ => show win0_3.index t (1 : Fin 2) * 64000 ≤ (i 1).val ∧ (i 1).val < win0_3.index t (1 : Fin 2) * 64000 + 64000; omega

/-- After the run the region's result array is `current` of the voltage and parameter arrays the region found. -/
theorem final (c : Dev nD) :
    (dats m 0 c).arrAt 3 cfg0.N = current (V m c main_v2) (V m c main_v3) (V m c main_arg2) :=
  (dats m 0 c).arrAt_eq_of_cover 3 _ (fun t _ => flushed_eq m c t) covered

end Cert.KernelIdeal.Edge

end
-- ==== Proof.KernelHost.lean ====
/-
  The kernel program's result as a term of its arguments.

  The region finds, as its two voltage arrays, the column takes of the padded voltages at the two index arrays (the
  three stretches of host operations before it, each read from any contents it starts from); it leaves the edge
  currents (`current` of what it found); and the lines after it leave the node sums of those currents.
-/
import proofs.«430799_j3075196584637_3_alg».proof.Proof.Gen.KernelIdeal.Frame
import proofs.«430799_j3075196584637_3_alg».proof.Proof.HostTerms
import proofs.«430799_j3075196584637_3_alg».proof.Proof.EdgeCurrent
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Host

open Cert.KernelIdeal Cert.KernelIdeal.Gen
open Cert.KernelIdeal.Edge (current)

variable {F : FTy → Type} [FloatOps F]

/-- A value carried to an equal type and back is itself. -/
theorem cast_round {α β : Type} (h : α = β) (h' : β = α) (v : β) : cast h (cast h' v) = v := by
  subst h; rfl

/-- Operations run one list after the other. -/
theorem after_append (l₁ l₂ : List (HloOp τ sig (Elt F))) (W : Valuation τ sig (Elt F)) :
    after (l₁ ++ l₂) W = after l₂ (after l₁ W) := by
  induction l₁ generalizing W with
  | nil => rfl
  | cons op l ih => exact ih _

/-! ## Buffers read and written at their tensor types -/

/-- The padded voltages' buffer, read as a [16, 50001] array. -/
abbrev rdPadded (W : Valuation τ sig (Elt F)) : FVec F S16x50001 .f32 :=
  (TRef.of main_v1 : TRef sig ⟨S16x50001, .f32⟩).ofBuf (W (Proc.devRef .tc main_v1))
/-- The two index arrays' buffers, read as index arrays. -/
abbrev rdSrc (W : Valuation τ sig (Elt F)) : IVec S1600000 32 :=
  (TRef.of main_arg3 : TRef sig ⟨S1600000, .i32⟩).ofBuf (W (Proc.devRef .tc main_arg3))
abbrev rdDes (W : Valuation τ sig (Elt F)) : IVec S1600000 32 :=
  (TRef.of main_arg4 : TRef sig ⟨S1600000, .i32⟩).ofBuf (W (Proc.devRef .tc main_arg4))

theorem rdPadded_eq (W : Valuation τ sig (Elt F)) : rdPadded W = W (Proc.devRef .tc main_v1) := rfl
theorem rdSrc_eq (W : Valuation τ sig (Elt F)) : rdSrc W = W (Proc.devRef .tc main_arg3) := rfl
theorem rdDes_eq (W : Valuation τ sig (Elt F)) : rdDes W = W (Proc.devRef .tc main_arg4) := rfl

/-- A [16, 1600000] array written to the first / second take's result buffer is that array. -/
theorem wrSrc_eq (v : FVec F S16x1600000 .f32) :
    ((TRef.of main_v2 : TRef sig ⟨S16x1600000, .f32⟩).toBuf (Val := Elt F) v : S16x1600000.Idx → Elt F .f32) = v := rfl
theorem wrDes_eq (v : FVec F S16x1600000 .f32) :
    ((TRef.of main_v3 : TRef sig ⟨S16x1600000, .f32⟩).toBuf (Val := Elt F) v : S16x1600000.Idx → Elt F .f32) = v := rfl

/-! ## Each stretch of host operations, from any contents `W` -/

set_option maxHeartbeats 4000000 in
/-- The padding stretch leaves the padded voltages. -/
theorem pad_result (W : Valuation τ sig (Elt F)) :
    (after hostOps0 W (Proc.devRef .tc main_v1) : S16x50001.Idx → Elt F .f32) = padded (W (Proc.devRef .tc main_arg1)) := by
  after_results
  rfl

set_option maxHeartbeats 4000000 in
/-- The first take leaves `taken` of what it found as padded voltages and as the first index array. -/
theorem take_src (W : Valuation τ sig (Elt F)) :
    after hostOps0_1 W (Proc.devRef .tc main_v2)
      = (TRef.of main_v2 : TRef sig ⟨S16x1600000, .f32⟩).toBuf (taken (rdPadded W) (rdSrc W)) := by
  after_results
  simp only [cast_round]
  rfl

set_option maxHeartbeats 4000000 in
/-- The second take, of the second index array. -/
theorem take_des (W : Valuation τ sig (Elt F)) :
    after hostOps0_2 W (Proc.devRef .tc main_v3)
      = (TRef.of main_v3 : TRef sig ⟨S16x1600000, .f32⟩).toBuf (taken (rdPadded W) (rdDes W)) := by
  after_results
  simp only [cast_round]
  rfl

set_option maxHeartbeats 4000000 in
/-- The lines after the region leave the node sums of what they found as index arrays and as the region's result. -/
theorem tail_result (W : Valuation τ sig (Elt F)) :
    (after hostOps1 W (Proc.devRef .tc main_v21) : S16x50000.Idx → Elt F .f32)
      = nodeSums (W (Proc.devRef .tc main_arg3)) (W (Proc.devRef .tc main_arg4)) (W (Proc.devRef .tc main_v4)) := by
  after_results
  rfl

end Cert.KernelIdeal.Host

/-! ## The arrays the region finds, and the program's result -/

namespace Cert.KernelIdeal.Host

open Cert.KernelIdeal Cert.KernelIdeal.Gen
open Cert.KernelIdeal.Edge (current)

variable {F : FTy → Type} [FloatOps F]
variable (m : (ℓ : Loc nD τ sig) → Buf (Elt F) ℓ) (ρ : Dev nD → PrngReg)

/-- Closes "no operation of these stretches writes this buffer": each operation writes its own result buffer only. -/
macro "not_written" : tactic => `(tactic| (
  refine List.forall_iff_forall_mem.mp ?_
  simp only [hostOps0, hostOps0_1, hostOps0_2, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-- The contents the region finds: the padding stretch, then the two takes, from the launch contents. -/
theorem V0_eq (c : Dev nD) :
    V0 m c = after hostOps0_2 (after hostOps0_1 (after hostOps0 (fun b => m (c, b)))) := by
  show after (hostOps0 ++ (hostOps0_1 ++ (hostOps0_2 ++ []))) _ = _
  rw [after_append, after_append, List.append_nil]

/-- The region finds the source-end voltages at the column take of the first index array, -/
theorem V_src (c : Dev nD) : (V m c main_v2 : S16x1600000.Idx → Elt F .f32)
    = taken (padded (m ((c : Thread nD τ).loc main_arg1))) (m ((c : Thread nD τ).loc main_arg3)) := by
  show V0 m c (Proc.devRef .tc main_v2) = _
  rw [V0_eq, after_of_forall_not_mem (b := Proc.devRef .tc main_v2) hostOps0_2 _ (by not_written), take_src, wrSrc_eq,
    rdPadded_eq, rdSrc_eq, pad_result, after_of_forall_not_mem (b := Proc.devRef .tc main_arg3) hostOps0 _ (by not_written)]

/-- and the destination-end voltages at the column take of the second. -/
theorem V_des (c : Dev nD) : (V m c main_v3 : S16x1600000.Idx → Elt F .f32)
    = taken (padded (m ((c : Thread nD τ).loc main_arg1))) (m ((c : Thread nD τ).loc main_arg4)) := by
  show V0 m c (Proc.devRef .tc main_v3) = _
  rw [V0_eq, take_des, wrDes_eq, rdPadded_eq, rdDes_eq,
    after_of_forall_not_mem (b := Proc.devRef .tc main_v1) hostOps0_1 _ (by not_written),
    after_of_forall_not_mem (b := Proc.devRef .tc main_arg4) hostOps0_1 _ (by not_written),
    pad_result, after_of_forall_not_mem (b := Proc.devRef .tc main_arg4) hostOps0 _ (by not_written)]

/-- The program's result, as the lines after the region leave it: the node sums of the edge currents of the two takes. -/
theorem result_eq (c : Dev nD) :
    (Pipeline.afterTail₀ cfgs (dats m) 0 (V0 m) [hostOps1] c main_v21 : S16x50000.Idx → Elt F .f32)
      = nodeSums (m ((c : Thread nD τ).loc main_arg3)) (m ((c : Thread nD τ).loc main_arg4))
          (current (taken (padded (m ((c : Thread nD τ).loc main_arg1))) (m ((c : Thread nD τ).loc main_arg3)))
            (taken (padded (m ((c : Thread nD τ).loc main_arg1))) (m ((c : Thread nD τ).loc main_arg4)))
            (m ((c : Thread nD τ).loc main_arg2))) := by
  unfold Pipeline.afterTail₀
  show after hostOps1 _ (Proc.devRef .tc main_v21) = _
  have e3 : V0 m c (Proc.devRef .tc main_arg3) = m ((c : Thread nD τ).loc main_arg3) := V_main_arg3 m c
  have e4 : V0 m c (Proc.devRef .tc main_arg4) = m ((c : Thread nD τ).loc main_arg4) := V_main_arg4 m c
  rw [tail_result,
    Pipeline.withArrays_of_ne _ c (V0 m c) _ main_arg3 (by exact (by decide : ∀ w, Pipeline.arrRef spec0 w ≠ main_arg3)),
    Pipeline.withArrays_of_ne _ c (V0 m c) _ main_arg4 (by exact (by decide : ∀ w, Pipeline.arrRef spec0 w ≠ main_arg4)),
    e3, e4]
  refine congrArg (nodeSums _ _) ?_
  refine (Pipeline.withArrays_arr spec0 launch0.win.arr_inj c _ _ 3).trans ?_
  rw [Edge.final, V_src, V_des, V_main_arg2]

/-- The kernel program's run, read: the result at the node sums of the edge currents of the two takes, the arguments
    unchanged. -/
theorem run : θ_run defs (onTc (τ := τ) (main (F := F))) ⟨m, fun _ => 0, ρ⟩ (fun r => ∀ c : Dev nD,
      r.2.mem ((c.tc : Thread nD τ).loc main_v21)
        = nodeSums (m ((c : Thread nD τ).loc main_arg3)) (m ((c : Thread nD τ).loc main_arg4))
            (current (taken (padded (m ((c : Thread nD τ).loc main_arg1))) (m ((c : Thread nD τ).loc main_arg3)))
              (taken (padded (m ((c : Thread nD τ).loc main_arg1))) (m ((c : Thread nD τ).loc main_arg4)))
              (m ((c : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v21 (Pipeline.mem_restRefs_of main_v21 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Host

end
-- ==== Proof.LibReduceOnes.lean ====
/-
  A `stablehlo.reduce` by `and` of an `i1` array that is 1 everywhere, from an initial value that is 1, is 1 at every
  result index (the converse of Lib/ReduceAll.lean's reading of `jnp.all`): the fold meets only ones.
-/
import Idealize.ShloMosaic.Lib.ReduceAll

namespace Idealize.ShloMosaic

namespace IntOp

/-- A left fold by `and` from 1 over `i1` words that are all 1 is 1. -/
theorem foldl_andi_ones {ι : Type} (f : ι → BitVec 1) :
    ∀ (l : List ι), (∀ n ∈ l, f n = 1#1) → l.foldl (fun r n => andi r (f n)) 1#1 = 1#1
  | [], _ => rfl
  | a :: l, h => by
    rw [List.foldl_cons, h a List.mem_cons_self, show andi (1#1 : BitVec 1) 1#1 = 1#1 from by decide]
    exact foldl_andi_ones f l fun n hn => h n (List.mem_cons_of_mem _ hn)

end IntOp

namespace Host

variable {s t u : Shape} {axes : List (Fin s.rank)}

/-- A reduce by `and` of an all-ones operand from an all-ones initial value is 1 at every result index. -/
theorem reduce_andi_ones (x : s.Idx → BitVec 1) (init : u.Idx → BitVec 1) (h : s.ReducesTo axes t) (hu : 0 < u.numel)
    (hx : ∀ i, x i = 1#1) (hi : ∀ k, init k = 1#1) (j : t.Idx) : Host.reduce IntOp.andi x init h hu j = 1#1 := by
  rw [Host.reduce_eq_foldl, hi]
  exact IntOp.foldl_andi_ones x _ fun n _ => hx n

end Host

end Idealize.ShloMosaic
-- ==== Proof.InRange.lean ====
/-
  What the precondition gives: both index arrays hold node indices, words that read signed lie in `0 … 50000`.

  For a node index the wrap-around of negative indices does nothing, the range test of the kernel's column take is true
  at every edge, and so the take is the plain gather of the columns: no fill value is ever selected.
-/
import proofs.«430799_j3075196584637_3_alg».proof.Pre_finite_inputs
import proofs.«430799_j3075196584637_3_alg».proof.Proof.HostTerms
import proofs.«430799_j3075196584637_3_alg».proof.Proof.LibReduceOnes
import Idealize.ShloMosaic.Lib.ReduceAll
import Idealize.ShloMosaic.Lib.Affine
import Idealize.ShloMosaic.Lib.ValueIdx
import Idealize.ShloMosaic.PureOps.Ideal

noncomputable section

open Idealize.ShloMosaic Idealize.ShloMosaic.ValueIdx

namespace Cert.KernelIdeal.Host

open Cert.KernelIdeal Cert.KernelIdeal.Gen

variable {F : FTy → Type} [FloatOps F]

/-- A word is a node index when, read signed, it lies in `0 … 50000`. -/
abbrev IsNode (v : BitVec 32) : Prop := IntOp.cmpi .sge v 0#32 = 1#1 ∧ IntOp.cmpi .sle v 50000#32 = 1#1

/-- Node indices are not negative, so counting from the end never applies. -/
theorem wrap_of_node (s : IVec S1600000 32) (h : ∀ e, IsNode (s e)) : wrap s = s := by
  funext e
  obtain ⟨hge, -⟩ := h e
  have hn : IntOp.cmpi .slt (s e) 0#32 ≠ 1#1 := by
    intro hlt
    have h1 := IntOp.cmpi_sge.1 hge
    have h2 := IntOp.cmpi_slt.1 hlt
    omega
  show Scalar.select (IntOp.cmpi .slt (s e) 0#32) (IntOp.addi (s e) 50001#32) (s e) = s e
  exact if_neg hn

/-- The range test at a start index, as words. -/
theorem inRange_apply (w : IVec S1600000x1 32) (i : S1600000x1.Idx) :
    inRange w i = IntOp.andi (IntOp.cmpi .sge (w i) 0#32) (IntOp.cmpi .sle (w i) 50000#32) := rfl

/-- With node indices the range test is true at every edge. -/
theorem inside_of_node (s : IVec S1600000 32) (h : ∀ e, IsNode (s e)) : inside s = fun _ => 1#1 := by
  funext j
  unfold inside
  refine Host.reduce_andi_ones _ _ _ _ (fun i => ?_) (fun _ => rfl) j
  obtain ⟨k, hk⟩ : ∃ k, wrapped s i = s k := ⟨_, by unfold wrapped; rw [wrap_of_node s h]; rfl⟩
  rw [inRange_apply, hk]
  obtain ⟨hge, hle⟩ := h k
  rw [hge, hle]
  decide

/-- So the kernel's column take is the gather itself. -/
theorem taken_of_node (a : FVec F S16x50001 .f32) (s : IVec S1600000 32) (h : ∀ e, IsNode (s e)) : taken a s = columns a s := by
  funext i
  unfold taken
  rw [inside_of_node s h]
  show Scalar.select (1#1) (columns a s i) _ = columns a s i
  exact if_pos rfl

instance : Subsingleton Cert.Pre_finite_inputs.S_.Idx := ⟨fun a b => funext fun d => d.elim0⟩

/-- The precondition, read back: every entry of both index arrays is a node index. -/
theorem nodes_of_pre [Cert.Pre_finite_inputs.Facts] (a0 : FVec Ideal Cert.Pre_finite_inputs.S1 .f32)
    (a1 : FVec Ideal Cert.Pre_finite_inputs.S16x50000 .f32) (a2 : FVec Ideal Cert.Pre_finite_inputs.S3x1600000 .f32)
    (s d : IVec S1600000 32) (h : Cert.Pre_finite_inputs.fn (F := Ideal) a0 a1 a2 s d = fun _ => 1#1) :
    (∀ e, IsNode (s e)) ∧ (∀ e, IsNode (d e)) := by
  have h0 := congrFun h ix0
  dsimp only [Cert.Pre_finite_inputs.fn, Cert.Pre_finite_inputs.fn_part1] at h0
  obtain ⟨h1, hd⟩ := IntOp.andi_eq_one.1 h0
  obtain ⟨-, hs⟩ := IntOp.andi_eq_one.1 h1
  exact ⟨fun e => IntOp.andi_eq_one.1 (Host.reduce_andi_all _ _ _ _ _ hs e),
    fun e => IntOp.andi_eq_one.1 (Host.reduce_andi_all _ _ _ _ _ hd e)⟩

end Cert.KernelIdeal.Host

end
-- ==== Proof.RefCurrent.lean ====
/-
  The reference's per-edge currents are the edge model of its two gathered voltage arrays.

  The reference slices each parameter row out of `p`, flattens it, and repeats it down the 16 batch rows; read at (r, e)
  that is `p(k, e)`. Its arithmetic is then the kernel's, operation for operation — gain · (vs − vd) + offset, tanh,
  amplitude · — and at the extended reals the host's tanh is the kernel's: one function.
-/
import proofs.«430799_j3075196584637_3_alg».proof.Proof.Gen.ReferenceIdeal.Read
import proofs.«430799_j3075196584637_3_alg».proof.Proof.EdgeCurrent
import Idealize.ShloMosaic.PureOps.Ideal

noncomputable section

open Idealize.ShloMosaic Idealize.ShloMosaic.TcCoe Idealize.SL.Sem Idealize.ShloMosaic.ValueIdx

namespace Cert.ReferenceIdeal.Edge

open Cert.ReferenceIdeal Cert.ReferenceIdeal.Gen Cert.ReferenceIdeal.Read
open Cert.KernelIdeal.Edge (current prow)

/-- Slice row 0, flatten, repeat down the rows: read at `i`, the parameters at row 0 and `i`'s column. -/
theorem row0 (i : S16x1600000.Idx) : idx_main_v17 (idx_main_v18 (idx_main_v31 (idx_main_v32 i))) = prow 0 i := by
  funext a; apply Fin.ext
  match a with
  | ⟨0, _⟩ => rfl
  | ⟨1, _⟩ => exact Nat.mod_eq_of_lt (i 1).isLt

/-- Row 1 likewise, -/
theorem row1 (i : S16x1600000.Idx) : idx_main_v19 (idx_main_v20 (idx_main_v24 (idx_main_v25 i))) = prow 1 i := by
  funext a; apply Fin.ext
  match a with
  | ⟨0, _⟩ => rfl
  | ⟨1, _⟩ => exact Nat.mod_eq_of_lt (i 1).isLt

/-- and row 2. -/
theorem row2 (i : S16x1600000.Idx) : idx_main_v21 (idx_main_v22 (idx_main_v27 (idx_main_v28 i))) = prow 2 i := by
  funext a; apply Fin.ext
  match a with
  | ⟨0, _⟩ => rfl
  | ⟨1, _⟩ => exact Nat.mod_eq_of_lt (i 1).isLt

/-- The reference's currents: `current` of its two gathered voltage arrays and the parameters. -/
theorem currents_eq (x1 : (⟨S16x50000, .f32⟩ : BufTy).Contents (Elt Ideal)) (x2 : (⟨S3x1600000, .f32⟩ : BufTy).Contents (Elt Ideal))
    (x3 x4 : (⟨S1600000, .i32⟩ : BufTy).Contents (Elt Ideal)) :
    val_main_v33 (F := Ideal) x1 x2 x3 x4
      = current (F := Ideal) (val_main_v9 (F := Ideal) x1 x3) (val_main_v16 (F := Ideal) x1 x4) x2 := by
  funext i
  rw [val_main_v33_apply, val_main_v32_apply, val_main_v31_apply, val_main_v18_apply, val_main_v17_apply,
    val_main_v30_apply, val_main_v29_apply, val_main_v26_apply, val_main_v25_apply, val_main_v24_apply,
    val_main_v20_apply, val_main_v19_apply, val_main_v23_apply, val_main_v28_apply, val_main_v27_apply,
    val_main_v22_apply, val_main_v21_apply, row0, row1, row2]
  rfl

end Cert.ReferenceIdeal.Edge

end
-- ==== Proof.lean ====
/-
  A circuit layer: 50000 nodes with a voltage each (16 batch rows), a ground node at voltage 0 put in front, and
  1,600,000 edges, each between a source node and a destination node (two index arrays, entries in `0 … 50000`) and
  with three parameters. Edge `e` carries the current
      amplitude(e) · tanh (gain(e) · (v[src e] − v[des e]) + offset(e)),
  and the result is, per node, the currents flowing in minus those flowing out (the ground node's entry dropped).

  The kernel gathers the two voltage arrays on the host, computes the currents in a region 64000 edges at a time, and
  sums them per node on the host; the reference does all of it on the host. The two differ in one place: the kernel's
  gather replaces the value by a fill value where an index is outside `0 … 50000`, the reference's clamps the index. The
  precondition says every index is inside, so the fill is never selected and both gathers are the same array; from there
  the currents are the same function of the same arrays, operation for operation, index by index (at the extended reals
  the host's tanh is the kernel's), and the per-node sums are the same scatter of equal arrays. No law of arithmetic is
  used, and the finiteness of the float inputs is not needed.

  The three frames are the generated frame certificates (the reference's is its generated run with the result dropped);
  the idealization rewrote nothing, so `preserves` is trivial.
-/
import proofs.«430799_j3075196584637_3_alg».proof.Defs
import proofs.«430799_j3075196584637_3_alg».proof.Proof.Gen.Kernel
import proofs.«430799_j3075196584637_3_alg».proof.Proof.Gen.Kernel.Skeleton
import proofs.«430799_j3075196584637_3_alg».proof.Proof.Gen.Kernel.Launch
import proofs.«430799_j3075196584637_3_alg».proof.Proof.Gen.Kernel.Points
import proofs.«430799_j3075196584637_3_alg».proof.Proof.Gen.Kernel.Frame
import proofs.«430799_j3075196584637_3_alg».proof.Proof.Gen.KernelIdeal
import proofs.«430799_j3075196584637_3_alg».proof.Proof.Gen.KernelIdeal.Skeleton
import proofs.«430799_j3075196584637_3_alg».proof.Proof.Gen.KernelIdeal.Launch
import proofs.«430799_j3075196584637_3_alg».proof.Proof.Gen.KernelIdeal.Points
import proofs.«430799_j3075196584637_3_alg».proof.Proof.Gen.KernelIdeal.Frame
import proofs.«430799_j3075196584637_3_alg».proof.Proof.Gen.ReferenceIdeal
import proofs.«430799_j3075196584637_3_alg».proof.Proof.Gen.Pre_finite_inputs
import proofs.«430799_j3075196584637_3_alg».proof.Proof.Gen.ReferenceIdeal.Run
import proofs.«430799_j3075196584637_3_alg».proof.Proof.Gen.ReferenceIdeal.Read
import proofs.«430799_j3075196584637_3_alg».proof.Proof.KernelHost
import proofs.«430799_j3075196584637_3_alg».proof.Proof.InRange
import proofs.«430799_j3075196584637_3_alg».proof.Proof.RefCurrent
import Idealize.ShloMosaic.Adequacy
import Idealize.ShloMosaic.Init

noncomputable section

namespace Cert.Proof

open Idealize.ShloMosaic Idealize.SL.Sem
open Cert.KernelIdeal.Host (padded columns taken nodeSums)
open Cert.KernelIdeal.Edge (current)

theorem frame_kernel : Cert.frame_Kernel := fun m ρ _ => Cert.Kernel.Gen.frame m ρ
theorem frame_kernel_ideal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- The reference gathers the same columns of the same padded voltages (its index is wrapped and clamped the same way). -/
theorem gather_src (x1 : FVec Ideal Cert.ReferenceIdeal.S16x50000 .f32) (x3 : IVec Cert.ReferenceIdeal.S1600000 32) :
    Cert.ReferenceIdeal.Read.val_main_v9 (F := Ideal) x1 x3 = columns (F := Ideal) (padded x1) x3 := rfl
theorem gather_des (x1 : FVec Ideal Cert.ReferenceIdeal.S16x50000 .f32) (x4 : IVec Cert.ReferenceIdeal.S1600000 32) :
    Cert.ReferenceIdeal.Read.val_main_v16 (F := Ideal) x1 x4 = columns (F := Ideal) (padded x1) x4 := rfl

/-- The reference's result is the same per-node sums, of its own currents. -/
theorem ref_sums (x1 : FVec Ideal Cert.ReferenceIdeal.S16x50000 .f32) (x2 : FVec Ideal Cert.ReferenceIdeal.S3x1600000 .f32)
    (x3 x4 : IVec Cert.ReferenceIdeal.S1600000 32) :
    Cert.ReferenceIdeal.Read.val_main_v50 (F := Ideal) x1 x2 x3 x4
      = nodeSums (F := Ideal) x3 x4 (Cert.ReferenceIdeal.Read.val_main_v33 (F := Ideal) x1 x2 x3 x4) := rfl

/-- From memories agreeing on the arguments, with every index a node index, both programs end at the per-node sums of the
    edge currents of the gathered voltages. -/
theorem algebraic : Cert.algebraic_KernelIdeal_ReferenceIdeal := by
  intro m ρ m' ρ' hpre hagree
  refine ⟨_, Cert.KernelIdeal.Host.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨hs, hd⟩ := Cert.KernelIdeal.Host.nodes_of_pre _ _ _ _ _ (hpre c)
  obtain ⟨-, e1, e2, e3, e4⟩ := hagree c
  rw [Cert.ReferenceIdeal.Read.val_main_v50_eq, e1, e2, e3, e4, ref_sums, Cert.ReferenceIdeal.Edge.currents_eq, gather_src,
    gather_des, Cert.KernelIdeal.Host.taken_of_node _ _ hs, Cert.KernelIdeal.Host.taken_of_node _ _ hd]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
